-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x8192 : Shape := ⟨3, ![64, 32, 8192]⟩
abbrev S64 : Shape := ⟨1, ![64]⟩
abbrev S_ : Shape := ⟨0, ![]⟩

class Facts : Prop where
  bcast_S_S64x32x8192 : S_.BroadcastsInDim S64x32x8192 (![] : Fin 0 → Fin S64x32x8192.rank)
  reducesTo_S64x32x8192_S_d0_1_2 : S64x32x8192.ReducesTo [0, 1, 2] S_
  h_S_ : 0 < S_.numel

variable [Facts]

def fn {F : FTy → Type} [FloatOps F] (main_arg0 : FVec F S64x32x8192 .f32) (main_arg1 : IVec S64 32) (main_arg2 : IVec S64x32x8192 1) : IVec S_ 1 :=
  let main_v0 : FVec F S64x32x8192 .f32 := Host.absf main_arg0
  let main_cst : FVec F S_ .f32 := constant S_ .f32 0x7F800000#32
  let main_v1 : FVec F S64x32x8192 .f32 := broadcastInDim S64x32x8192 ![] bcast_S_S64x32x8192 main_cst
  let main_v2 : IVec S64x32x8192 1 := cmpf .olt main_v0 main_v1
  let main_c : IVec S_ 1 := constantI S_ 1 1#1
  let main_v3 : IVec S_ 1 := (fun x v => Host.reduce IntOp.andi x v reducesTo_S64x32x8192_S_d0_1_2 h_S_) main_v2 main_c
  let main_cst_0 : FVec F S_ .f32 := constant S_ .f32 0xBF800000#32
  let main_v4 : FVec F S64x32x8192 .f32 := broadcastInDim S64x32x8192 ![] bcast_S_S64x32x8192 main_cst_0
  let main_v5 : IVec S64x32x8192 1 := cmpf .oge main_arg0 main_v4
  let main_c_1 : IVec S_ 1 := constantI S_ 1 1#1
  let main_v6 : IVec S_ 1 := (fun x v => Host.reduce IntOp.andi x v reducesTo_S64x32x8192_S_d0_1_2 h_S_) main_v5 main_c_1
  let main_v7 : IVec S_ 1 := andi main_v3 main_v6
  main_v7
-- ==== Kernel.lean ====
abbrev S64x32x8192 : Shape := ⟨3, ![64, 32, 8192]⟩
abbrev S64 : Shape := ⟨1, ![64]⟩
abbrev S64x32x29 : Shape := ⟨3, ![64, 32, 29]⟩
abbrev S4x32x8192 : Shape := ⟨3, ![4, 32, 8192]⟩
abbrev S4x32x29 : Shape := ⟨3, ![4, 32, 29]⟩
abbrev S4x32 : Shape := ⟨2, ![4, 32]⟩
abbrev S4x32x1 : Shape := ⟨3, ![4, 32, 1]⟩

abbrev nBuf : Space → Nat
  | .hbm => 5
  | .vmem => 6
  | .smem => 0
  | _ => 0

abbrev bufTy : (tb : Table) → Fin (tcTables nBuf tb) → BufTy
  | .hbm, ⟨0, _⟩ => ⟨S64x32x8192, .f32⟩
  | .hbm, ⟨1, _⟩ => ⟨S64, .i32⟩
  | .hbm, ⟨2, _⟩ => ⟨S64x32x8192, .i1⟩
  | .hbm, ⟨3, _⟩ => ⟨S64x32x8192, .i32⟩
  | .hbm, ⟨4, _⟩ => ⟨S64x32x29, .f32⟩
  | .local _ .vmem, ⟨0, _⟩ => ⟨S4x32x8192, .f32⟩
  | .local _ .vmem, ⟨1, _⟩ => ⟨S4x32x8192, .f32⟩
  | .local _ .vmem, ⟨2, _⟩ => ⟨S4x32x8192, .i32⟩
  | .local _ .vmem, ⟨3, _⟩ => ⟨S4x32x8192, .i32⟩
  | .local _ .vmem, ⟨4, _⟩ => ⟨S4x32x29, .f32⟩
  | .local _ .vmem, ⟨5, _⟩ => ⟨S4x32x29, .f32⟩
  | _, _ => ⟨S64x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x32x29 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  natLt_1_32 : 1 < 32
  inb_S4x32x8192_S4x32x8192_0_0_0 : ∀ a, (![0, 0, 0] : Fin 3 → Nat) a + S4x32x8192.size a ≤ S4x32x8192.size a
  h_S4x32x8192 : 0 < S4x32x8192.numel
  reduces_S4x32x8192_S4x32 : S4x32x8192.Reduces [2] S4x32
  shapeCasts_S4x32_S4x32x1 : S4x32.ShapeCasts S4x32x1
  concatenates_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x29_d2 : Shape.Concatenates [S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1] S4x32x29 2
  inb_S4x32x29_S4x32x29_0_0_0 : ∀ a, (![0, 0, 0] : Fin 3 → Nat) a + S4x32x29.size a ≤ S4x32x29.size a
  h_S4x32x29 : 0 < S4x32x29.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x32x8192.size a ≤ S64x32x8192.size a
  hwx0_0 : ∀ i : grid0.Coords, EltTy.bits .f32 = 32 ∨ (Rect.block (s := S64x32x8192) S4x32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x32x8192.size a ≤ S64x32x8192.size a
  hwx0_1 : ∀ i : grid0.Coords, EltTy.bits .i32 = 32 ∨ (Rect.block (s := S64x32x8192) S4x32x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x32x29.size a ≤ S64x32x29.size a
  hwx0_2 : ∀ i : grid0.Coords, EltTy.bits .f32 = 32 ∨ (Rect.block (s := S64x32x29) S4x32x29.size (cc0_transform_2 i) (hinb0_2 i)).WholeWords (EltTy.packing .f32)

variable [Facts₀]

abbrev win0_0 : Pipeline.Window sig grid0 :=
  Pipeline.Window.ofSpec (Memref.whole main_arg0) S4x32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x32x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x32x29.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x32x8192 : Shape := ⟨3, ![64, 32, 8192]⟩
abbrev S64 : Shape := ⟨1, ![64]⟩
abbrev S_ : Shape := ⟨0, ![]⟩
abbrev S64x1x1 : Shape := ⟨3, ![64, 1, 1]⟩
abbrev S32 : Shape := ⟨1, ![32]⟩
abbrev S1x32x1 : Shape := ⟨3, ![1, 32, 1]⟩
abbrev S64x32x29 : Shape := ⟨3, ![64, 32, 29]⟩
abbrev S64x32x8192x1 : Shape := ⟨4, ![64, 32, 8192, 1]⟩
abbrev S64x32x8192x3 : Shape := ⟨4, ![64, 32, 8192, 3]⟩

abbrev nBuf : Space → Nat
  | .hbm => 48
  | .vmem => 0
  | .smem => 0
  | _ => 0

abbrev bufTy : (tb : Table) → Fin (tcTables nBuf tb) → BufTy
  | .hbm, ⟨0, _⟩ => ⟨S64x32x8192, .f32⟩
  | .hbm, ⟨1, _⟩ => ⟨S64, .i32⟩
  | .hbm, ⟨2, _⟩ => ⟨S64x32x8192, .i1⟩
  | .hbm, ⟨3, _⟩ => ⟨S_, .f32⟩
  | .hbm, ⟨4, _⟩ => ⟨S64x32x8192, .f32⟩
  | .hbm, ⟨5, _⟩ => ⟨S64x32x8192, .f32⟩
  | .hbm, ⟨6, _⟩ => ⟨S_, .f32⟩
  | .hbm, ⟨7, _⟩ => ⟨S64x32x8192, .f32⟩
  | .hbm, ⟨8, _⟩ => ⟨S64x32x8192, .f32⟩
  | .hbm, ⟨9, _⟩ => ⟨S_, .f32⟩
  | .hbm, ⟨10, _⟩ => ⟨S64x32x8192, .f32⟩
  | .hbm, ⟨11, _⟩ => ⟨S64x32x8192, .f32⟩
  | .hbm, ⟨12, _⟩ => ⟨S64x32x8192, .i32⟩
  | .hbm, ⟨13, _⟩ => ⟨S64x32x8192, .f32⟩
  | .hbm, ⟨14, _⟩ => ⟨S64, .i32⟩
  | .hbm, ⟨15, _⟩ => ⟨S64x1x1, .i32⟩
  | .hbm, ⟨16, _⟩ => ⟨S32, .i32⟩
  | .hbm, ⟨17, _⟩ => ⟨S1x32x1, .i32⟩
  | .hbm, ⟨18, _⟩ => ⟨S_, .f32⟩
  | .hbm, ⟨19, _⟩ => ⟨S64x32x29, .f32⟩
  | .hbm, ⟨20, _⟩ => ⟨S_, .i32⟩
  | .hbm, ⟨21, _⟩ => ⟨S64x1x1, .i32⟩
  | .hbm, ⟨22, _⟩ => ⟨S64x1x1, .i1⟩
  | .hbm, ⟨23, _⟩ => ⟨S_, .i32⟩
  | .hbm, ⟨24, _⟩ => ⟨S64x1x1, .i32⟩
  | .hbm, ⟨25, _⟩ => ⟨S64x1x1, .i32⟩
  | .hbm, ⟨26, _⟩ => ⟨S64x1x1, .i32⟩
  | .hbm, ⟨27, _⟩ => ⟨S_, .i32⟩
  | .hbm, ⟨28, _⟩ => ⟨S1x32x1, .i32⟩
  | .hbm, ⟨29, _⟩ => ⟨S1x32x1, .i1⟩
  | .hbm, ⟨30, _⟩ => ⟨S_, .i32⟩
  | .hbm, ⟨31, _⟩ => ⟨S1x32x1, .i32⟩
  | .hbm, ⟨32, _⟩ => ⟨S1x32x1, .i32⟩
  | .hbm, ⟨33, _⟩ => ⟨S1x32x1, .i32⟩
  | .hbm, ⟨34, _⟩ => ⟨S_, .i32⟩
  | .hbm, ⟨35, _⟩ => ⟨S64x32x8192, .i32⟩
  | .hbm, ⟨36, _⟩ => ⟨S64x32x8192, .i1⟩
  | .hbm, ⟨37, _⟩ => ⟨S_, .i32⟩
  | .hbm, ⟨38, _⟩ => ⟨S64x32x8192, .i32⟩
  | .hbm, ⟨39, _⟩ => ⟨S64x32x8192, .i32⟩
  | .hbm, ⟨40, _⟩ => ⟨S64x32x8192, .i32⟩
  | .hbm, ⟨41, _⟩ => ⟨S64x32x8192, .i32⟩
  | .hbm, ⟨42, _⟩ => ⟨S64x32x8192, .i32⟩
  | .hbm, ⟨43, _⟩ => ⟨S64x32x8192x1, .i32⟩
  | .hbm, ⟨44, _⟩ => ⟨S64x32x8192x1, .i32⟩
  | .hbm, ⟨45, _⟩ => ⟨S64x32x8192x1, .i32⟩
  | .hbm, ⟨46, _⟩ => ⟨S64x32x8192x3, .i32⟩
  | .hbm, ⟨47, _⟩ => ⟨S64x32x29, .f32⟩
  | _, _ => ⟨S64x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S_S64x32x8192 : S_.BroadcastsInDim S64x32x8192 (![] : Fin 0 → Fin S64x32x8192.rank)
  bcast_S64_S64x1x1_0 : S64.BroadcastsInDim S64x1x1 (![0] : Fin 1 → Fin S64x1x1.rank)
  bcast_S32_S1x32x1_1 : S32.BroadcastsInDim S1x32x1 (![1] : Fin 1 → Fin S1x32x1.rank)
  bcast_S_S64x32x29 : S_.BroadcastsInDim S64x32x29 (![] : Fin 0 → Fin S64x32x29.rank)
  bcast_S_S64x1x1 : S_.BroadcastsInDim S64x1x1 (![] : Fin 0 → Fin S64x1x1.rank)
  bcast_S_S1x32x1 : S_.BroadcastsInDim S1x32x1 (![] : Fin 0 → Fin S1x32x1.rank)
  bcast_S64x1x1_S64x32x8192_0_1_2 : S64x1x1.BroadcastsInDim S64x32x8192 (![0, 1, 2] : Fin 3 → Fin S64x32x8192.rank)
  bcast_S1x32x1_S64x32x8192_0_1_2 : S1x32x1.BroadcastsInDim S64x32x8192 (![0, 1, 2] : Fin 3 → Fin S64x32x8192.rank)
  bcast_S64x32x8192_S64x32x8192x1_0_1_2 : S64x32x8192.BroadcastsInDim S64x32x8192x1 (![0, 1, 2] : Fin 3 → Fin S64x32x8192x1.rank)
  concatenates_S64x32x8192x1_S64x32x8192x1_S64x32x8192x1_S64x32x8192x3_d3 : Shape.Concatenates [S64x32x8192x1, S64x32x8192x1, S64x32x8192x1] S64x32x8192x3 3
  scatter_S64x32x29_S64x32x8192x3_S64x32x8192_n_012_012_3_wf : ScatterDims.WF S64x32x29 S64x32x8192x3 S64x32x8192 [] [0, 1, 2] [0, 1, 2] 3

variable [Facts₀]

def scatter_S64x32x29_S64x32x8192x3_S64x32x8192_n_012_012_3 : ScatterDims S64x32x29 S64x32x8192x3 S64x32x8192 where
  updateWindowDims := []
  insertedWindowDims := [0, 1, 2]
  scatterDimsToOperandDims := [0, 1, 2]
  indexVectorDim := 3
  wf := scatter_S64x32x29_S64x32x8192x3_S64x32x8192_n_012_012_3_wf

class Facts : Prop extends Facts₀ where

variable [Facts]
-- ==== Proof.Consts.lean ====
/-
  The float literals the two programs and the precondition spell, as the extended reals their bit patterns denote:
  the shift 1.00001 (the f32 nearest to it, 1 + 84 / 2^23), the divisor 2, the scale 28, the lower end -1 of the
  documented range of the similarity values, and zero.
-/
import Idealize.ShloMosaic.PureOps.Ideal

noncomputable section

namespace Cert.Hist.Consts

open Idealize.ShloMosaic

/-- The shift added to a similarity value: the f32 nearest 1.00001, which is 1 + 84 / 2^23. -/
theorem ofBits_shift : Ideal.ofBits .f32 0x3F800054#32 = ((8388692 / 8388608 : ℝ) : EReal) := by
  simp [Ideal.ofBits, Ideal.ieee, -EReal.coe_mul]; norm_num

/-- The divisor 2. -/
theorem ofBits_two : Ideal.ofBits .f32 0x40000000#32 = ((2 : ℝ) : EReal) := by
  simp [Ideal.ofBits, Ideal.ieee, -EReal.coe_mul]; norm_num

/-- The scale 28, one less than the number of bins. -/
theorem ofBits_28 : Ideal.ofBits .f32 0x41E00000#32 = ((28 : ℝ) : EReal) := by
  simp [Ideal.ofBits, Ideal.ieee, -EReal.coe_mul]; norm_num

/-- The lower end of the range of a similarity value. -/
theorem ofBits_negOne : Ideal.ofBits .f32 0xBF800000#32 = ((-1 : ℝ) : EReal) := by
  simp [Ideal.ofBits, Ideal.ieee, -EReal.coe_mul]; norm_num

/-- The zero every histogram entry starts from. -/
theorem ofBits_zero : Ideal.ofBits .f32 0x00000000#32 = 0 := by
  simp [Ideal.ofBits, Ideal.ieee]

end Cert.Hist.Consts

end
-- ==== Proof.Range.lean ====
/-
  What the precondition says of one similarity value: it is at least -1.

  The precondition is the conjunction of two `all`s over the similarity values: each is finite, each is at least -1
  (the lower end of the range the reference documents for them). A conjunction of one-bit words that is 1 has both sides
  1; an `all` that is 1 has every element 1; and a comparison of extended reals that answers 1 holds.
-/
import proofs.«158689_j49108656062551_1_alg».proof.Pre_finite_inputs
import proofs.«158689_j49108656062551_1_alg».proof.Proof.Gen.Pre_finite_inputs
import proofs.«158689_j49108656062551_1_alg».proof.Proof.Consts
import Idealize.ShloMosaic.Lib.ReduceAll
import Idealize.ShloMosaic.Lib.ValueIdx
import Idealize.ShloMosaic.Lib.Pipeline.Value
import Idealize.ShloMosaic.PureOps.Ideal.Laws

noncomputable section

namespace Cert.Hist.Range

open Cert.Pre_finite_inputs Cert.Pre_finite_inputs.Gen
open Idealize.ShloMosaic Idealize.ShloMosaic.ValueIdx

/-- A comparison's answer, a one-bit word made from a decision, is 1 only if the compared fact holds. -/
theorem of_ofBool_decide {p : Prop} [Decidable p] (h : BitVec.ofBool (decide p) = 1#1) : p := by
  by_contra hp
  rw [decide_eq_false hp] at h
  exact absurd h (by decide)

instance : Subsingleton S_.Idx := ⟨fun a b => funext fun d => d.elim0⟩

/-- Under the precondition every similarity value is at least -1. -/
theorem lower_of_pre (x : FVec Ideal S64x32x8192 .f32) (a1 : IVec S64 32) (a2 : IVec S64x32x8192 1)
    (h : Cert.Pre_finite_inputs.fn (F := Ideal) x a1 a2 = fun _ => 1#1) (i : S64x32x8192.Idx) :
    ((-1 : ℝ) : EReal) ≤ x i := by
  have h0 := congrFun h ix0
  dsimp only [Cert.Pre_finite_inputs.fn] at h0
  obtain ⟨h3, h6⟩ := IntOp.andi_eq_one.1 h0
  have g5 := Host.reduce_andi_all _ _ _ _ ix0 h6 i
  rw [cmpf_apply, broadcastInDim_apply _ bcast_S_S64x32x8192 _ i (fun a => a.elim0) (fun a => a.elim0)] at g5
  have := of_ofBool_decide (p := Ideal.ofBits .f32 0xBF800000#32 ≤ x i) g5
  rwa [Consts.ofBits_negOne] at this

end Cert.Hist.Range

end
-- ==== Proof.Bins.lean ====
/-
  The histogram both programs compute, as one function of the similarity values and the weights.

  A similarity value `x` falls into the bin `trunc ((x + 1.00001) / 2 · 28)`, a signed 32-bit word (`binOf`).
  Entry `(b, q, k)` of the histogram is the sum, over the 8192 document positions `d`, of the weight at `(b, q, d)`
  where the bin of the value at `(b, q, d)` is `k`, and of nothing elsewhere (`hist`).

  A value of at least -1, the lower end of the documented range [-1, 1], has a shifted value of at least 0.00001, so its
  scaled value is not negative and neither is its bin (`binOf_nonneg`): this is what keeps a bin from being read as an
  index counted from the end of the 29 bins. (Nothing is asked from above: a bin past 28 counts nowhere.)
-/
import Idealize.ShloMosaic.PureOps.Ideal
import Idealize.ShloMosaic.Lib.ValueIdx
import proofs.«158689_j49108656062551_1_alg».proof.Proof.Consts

noncomputable section

namespace Cert.Hist

open Idealize.ShloMosaic Idealize.ShloMosaic.ValueIdx

/-- The similarity values and the weights: one entry per (batch, query position, document position). -/
abbrev SIn : Shape := ⟨3, ![64, 32, 8192]⟩
/-- The histograms: 29 bins per (batch, query position). -/
abbrev SOut : Shape := ⟨3, ![64, 32, 29]⟩

/-- The bin of a similarity value: its shifted, halved and scaled value truncated toward zero to a signed word. -/
def binOf (x : EReal) : BitVec 32 :=
  Ideal.fptosi 32
    (Ideal.div (x + Ideal.ofBits .f32 0x3F800054#32) (Ideal.ofBits .f32 0x40000000#32) * Ideal.ofBits .f32 0x41E00000#32)

/-- The histogram: entry `(b, q, k)` adds up the weights of the document positions whose value falls into bin `k`. -/
def hist (x w : SIn.Idx → EReal) : SOut.Idx → EReal := fun i =>
  ∑ d : Fin 8192, if binOf (x (ix3 (i 0) (i 1) d)) = BitVec.ofNat 32 (i 2).val then w (ix3 (i 0) (i 1) d) else 0

/-- A value of at least -1 has a non-negative bin: `(x + 1.00001) / 2 · 28 ≥ 0`, its truncation is a non-negative
    integer, and clamping it to the signed 32-bit range keeps it non-negative; at +∞ the bin is the largest word. -/
theorem binOf_nonneg {x : EReal} (hlo : ((-1 : ℝ) : EReal) ≤ x) : 0 ≤ (binOf x).toInt := by
  induction x using EReal.rec with
  | bot => exact absurd (le_bot_iff.mp hlo) (EReal.coe_ne_bot _)
  | top =>
    unfold binOf
    rw [Consts.ofBits_shift, Consts.ofBits_two, Consts.ofBits_28, Ideal.div_coe (by norm_num : (2 : ℝ) ≠ 0),
      EReal.top_add_coe, EReal.top_mul_coe_of_pos (by norm_num), EReal.top_mul_coe_of_pos (by norm_num)]
    unfold Ideal.fptosi
    rw [Ideal.toIntClamped_top]
    decide
  | coe r =>
    have hr : (-1 : ℝ) ≤ r := by exact_mod_cast hlo
    unfold binOf
    rw [Consts.ofBits_shift, Consts.ofBits_two, Consts.ofBits_28, Ideal.div_coe (by norm_num : (2 : ℝ) ≠ 0),
      ← EReal.coe_add, ← EReal.coe_mul, ← EReal.coe_mul]
    have hv : (0 : ℝ) ≤ (r + 8388692 / 8388608) * (1 / 2) * 28 := by
      have : (0 : ℝ) ≤ r + 8388692 / 8388608 := by linarith
      positivity
    unfold Ideal.fptosi
    rw [Ideal.toIntClamped_coe, if_pos hv]
    have hf : (0 : Int) ≤ ⌊(r + 8388692 / 8388608) * (1 / 2) * 28⌋ := Int.floor_nonneg.mpr hv
    rw [BitVec.toInt_ofInt]
    generalize ⌊(r + 8388692 / 8388608) * (1 / 2) * 28⌋ = z at hf
    simp only [Int.bmod_def]
    norm_num
    omega

/-- A non-negative word is the bin number `k` (below 29) exactly when its signed reading is `k`. -/
theorem toInt_eq_iff (v : BitVec 32) (hv : 0 ≤ v.toInt) (k : Nat) (hk : k < 29) :
    v.toInt = (k : Int) ↔ v = BitVec.ofNat 32 k := by
  constructor
  · intro h
    apply BitVec.eq_of_toInt_eq
    rw [h, BitVec.toInt_ofNat']
    simp only [Int.bmod_def]
    omega
  · intro h
    rw [h, BitVec.toInt_ofNat']
    simp only [Int.bmod_def]
    omega

/-- A word whose signed reading is non-negative is not below zero in the signed order. -/
theorem not_slt_zero (v : BitVec 32) (hv : 0 ≤ v.toInt) : IntOp.cmpi .slt v 0#32 = 0#1 := by
  have : v.slt 0#32 = false := by
    rw [BitVec.slt_eq_decide]
    simp only [BitVec.toInt_zero, decide_eq_false_iff_not, not_lt]
    exact hv
  simp [IntOp.cmpi, this]

end Cert.Hist

end
-- ==== Proof.LibScatter.lean ====
/-
  Two general facts about sums over a rank-3 index set and about the host's accumulating scatter.

  `sum_filter_fiber3`: a sum over the rank-3 indices whose first two coordinates are fixed and whose third satisfies a
  predicate is the sum over the third coordinate alone, each term kept where the predicate holds.

  `resultIdx?_eq_some_iff`: when a scatter has no window axes (every operand axis is addressed by the index vector),
  an update lands on the operand element `i` exactly when, on every axis, its start index read signed is `i`'s
  coordinate; an update whose start index leaves the operand on some axis lands nowhere.
-/
import Idealize.ShloMosaic.PureOps.Ideal
import Idealize.ShloMosaic.Lib.ValueIdx

noncomputable section

namespace Cert.Hist

open Idealize.ShloMosaic Idealize.ShloMosaic.ValueIdx

/-- Summing over the rank-3 indices `(b, q, d)` with `b`, `q` fixed and `P d`: the sum over `d` of the terms where `P d`. -/
theorem sum_filter_fiber3 {M : Type*} [AddCommMonoid M] {n0 n1 n2 : Nat} (b : Fin n0) (q : Fin n1)
    (P : Fin n2 → Prop) [DecidablePred P] (f : (⟨3, ![n0, n1, n2]⟩ : Shape).Idx → M)
    (S : Finset (⟨3, ![n0, n1, n2]⟩ : Shape).Idx) (hS : ∀ j, j ∈ S ↔ (j 0 = b ∧ j 1 = q ∧ P (j 2))) :
    ∑ j ∈ S, f j = ∑ d : Fin n2, if P d then f (ix3 b q d) else 0 := by
  rw [← Finset.sum_filter]
  refine Finset.sum_bij' (fun j _ => j 2) (fun d _ => ix3 b q d) ?_ ?_ ?_ ?_ ?_
  · intro j hj
    exact Finset.mem_filter.mpr ⟨Finset.mem_univ _, ((hS j).mp hj).2.2⟩
  · intro d hd
    exact (hS _).mpr ⟨rfl, rfl, (Finset.mem_filter.mp hd).2⟩
  · intro j hj
    obtain ⟨h0, h1, -⟩ := (hS j).mp hj
    funext a
    match a with
    | ⟨0, _⟩ => exact h0.symm
    | ⟨1, _⟩ => exact h1.symm
    | ⟨2, _⟩ => rfl
  · intro d _
    rfl
  · intro j hj
    obtain ⟨h0, h1, -⟩ := (hS j).mp hj
    congr 1
    funext a
    match a with
    | ⟨0, _⟩ => exact h0
    | ⟨1, _⟩ => exact h1
    | ⟨2, _⟩ => rfl

/-- With no window coordinate on any axis, update `j` lands on operand element `i` iff its start index is `i`. -/
theorem resultIdx?_eq_some_iff {s si u : Shape} (D : ScatterDims s si u) {w : Nat} (j : u.Idx) (idx : IVec si w)
    (i : s.Idx) (hw : ∀ a, D.window j a = 0) :
    D.resultIdx? j idx = some i ↔ ∀ a, D.start j idx a = ((i a).val : Int) := by
  have hwz : ∀ a, ((D.window j a : Nat) : Int) = 0 := fun a => by rw [hw a]; rfl
  unfold ScatterDims.resultIdx?
  constructor
  · intro h a
    split at h
    · rename_i hh
      have e := congrArg (fun f : s.Idx => (f a).val) (Option.some.inj h)
      simp only at e
      have h0 := (hh a).1
      rw [hwz a] at e h0
      omega
    · exact absurd h (by simp)
  · intro h
    have hh : ∀ a, 0 ≤ D.start j idx a + D.window j a ∧ D.start j idx a + D.window j a < s.size a := fun a => by
      rw [hwz a, h a]
      exact ⟨by omega, by have := (i a).isLt; omega⟩
    rw [dif_pos hh]
    congr 1
    funext a
    apply Fin.ext
    show (D.start j idx a + D.window j a).toNat = (i a).val
    rw [hwz a, h a]
    omega

end Cert.Hist

end
-- ==== Proof.RefHist.lean ====
/-
  The reference computes the histogram `hist`.

  The reference scatters, for every (batch, query position, document position) `j = (b', q', d')`, the weight at `j`
  onto the histogram entry whose index vector is `(b', q', n)`, where `n` is the bin of the value at `j` with a negative
  bin moved up by 29 (an index counted from the end). The first two components are the position's own batch and query
  coordinates (small non-negative words, read back exactly). So the weight at `j` lands on entry `(b, q, k)` exactly when
  `b' = b`, `q' = q` and `n = k`; and where the bin is non-negative, `n` is the bin itself. Entry `(b, q, k)` therefore
  ends at zero plus the weights of the document positions `d` of row `(b, q)` whose bin is `k`: the histogram.
-/
import proofs.«158689_j49108656062551_1_alg».proof.Proof.Gen.ReferenceIdeal.Read
import proofs.«158689_j49108656062551_1_alg».proof.Proof.Bins
import proofs.«158689_j49108656062551_1_alg».proof.Proof.LibScatter
import Idealize.ShloMosaic.Lib.Pipeline.Value
import Idealize.ShloMosaic.Lib.ValueIdx

noncomputable section

namespace Cert.Hist.Ref

open Cert.ReferenceIdeal Cert.ReferenceIdeal.Gen Cert.ReferenceIdeal.Read
open Idealize.ShloMosaic Idealize.ShloMosaic.ValueIdx

/-- The scatter's dimension numbers: no window axes, all three operand axes addressed by the index vector. -/
abbrev D : ScatterDims S64x32x29 S64x32x8192x3 S64x32x8192 := scatter_S64x32x29_S64x32x8192x3_S64x32x8192_n_012_012_3

/-- A small natural number as a 32-bit word reads back, signed, as itself. -/
theorem toInt_ofNat_small (n : Nat) (h : n < 8192) : (BitVec.ofNat 32 n).toInt = (n : Int) := by
  rw [BitVec.toInt_ofNat']
  simp only [Int.bmod_def]
  omega

/-- No update has a window coordinate: every operand axis is an inserted one. -/
theorem window_zero (j : S64x32x8192.Idx) (a : Fin 3) : D.window j a = 0 := by
  have hk : D.sKept = [] := rfl
  unfold ScatterDims.window
  rw [dif_neg (by rw [hk]; exact List.not_mem_nil)]

/-- The start of the update at position `(b', q', d')` on operand axis `a` is component `a` of the index vector stored
    at that position, read signed: axis by axis. -/
theorem start_eq0 (b' : Fin 64) (q' : Fin 32) (d' : Fin 8192) (idx : IVec S64x32x8192x3 32) :
    D.start (ix3 b' q' d') idx (0 : Fin 3) = (idx (ix4 b' q' d' (0 : Fin 3))).toInt := by
  show (if ha : (0 : Fin 3) ∈ D.scatterDimsToOperandDims then _ else (0 : Int)) = _
  rw [dif_pos (by decide)]
  refine congrArg (fun z => (idx z).toInt) (funext fun b => ?_)
  match b with
  | ⟨0, _⟩ => rfl
  | ⟨1, _⟩ => rfl
  | ⟨2, _⟩ => rfl
  | ⟨3, _⟩ => rfl

theorem start_eq1 (b' : Fin 64) (q' : Fin 32) (d' : Fin 8192) (idx : IVec S64x32x8192x3 32) :
    D.start (ix3 b' q' d') idx (1 : Fin 3) = (idx (ix4 b' q' d' (1 : Fin 3))).toInt := by
  show (if ha : (1 : Fin 3) ∈ D.scatterDimsToOperandDims then _ else (0 : Int)) = _
  rw [dif_pos (by decide)]
  refine congrArg (fun z => (idx z).toInt) (funext fun b => ?_)
  match b with
  | ⟨0, _⟩ => rfl
  | ⟨1, _⟩ => rfl
  | ⟨2, _⟩ => rfl
  | ⟨3, _⟩ => rfl

theorem start_eq2 (b' : Fin 64) (q' : Fin 32) (d' : Fin 8192) (idx : IVec S64x32x8192x3 32) :
    D.start (ix3 b' q' d') idx (2 : Fin 3) = (idx (ix4 b' q' d' (2 : Fin 3))).toInt := by
  show (if ha : (2 : Fin 3) ∈ D.scatterDimsToOperandDims then _ else (0 : Int)) = _
  rw [dif_pos (by decide)]
  refine congrArg (fun z => (idx z).toInt) (funext fun b => ?_)
  match b with
  | ⟨0, _⟩ => rfl
  | ⟨1, _⟩ => rfl
  | ⟨2, _⟩ => rfl
  | ⟨3, _⟩ => rfl

variable (x0 : S64x32x8192.Idx → EReal) (x2 : IVec S64x32x8192 1)

/-- A coordinate of a position, below 8192, as a word is not negative. -/
theorem coord_not_neg (n : Nat) (h : n < 8192) : IntOp.cmpi .slt (BitVec.ofNat 32 n) 0#32 = 0#1 :=
  not_slt_zero _ (by rw [toInt_ofNat_small n h]; omega)

/-- Off the joined axis, the index `(b', q', d', 0)` of a piece has the coordinates of `(b', q', d', c)`. -/
theorem piece_coords (b' : Fin 64) (q' : Fin 32) (d' : Fin 8192) (c : Fin 3) :
    ∀ a : Fin S64x32x8192x1.rank, a.cast (rfl : S64x32x8192x1.rank = S64x32x8192x3.rank) ≠ (3 : Fin 4) →
      ((ix4 b' q' d' (0 : Fin 1) : S64x32x8192x1.Idx) a).val
        = ((ix4 b' q' d' c : S64x32x8192x3.Idx) (a.cast (rfl : S64x32x8192x1.rank = S64x32x8192x3.rank))).val := by
  intro a ha
  match a with
  | ⟨0, _⟩ => rfl
  | ⟨1, _⟩ => rfl
  | ⟨2, _⟩ => rfl
  | ⟨3, _⟩ => exact absurd rfl ha

/-- The index vector stored at position `(b', q', d')`, first component: the batch coordinate `b'`. -/
theorem idx_comp0 (b' : Fin 64) (q' : Fin 32) (d' : Fin 8192) :
    val_main_v33 (F := Ideal) x0 (ix4 b' q' d' (0 : Fin 3)) = BitVec.ofNat 32 b'.val := by
  unfold val_main_v33
  rw [concatenate_apply_piece (t := S64x32x8192x3) (3 : Fin 4) _ _ (ix4 b' q' d' (0 : Fin 3)) 0 (Nat.lt_of_sub_eq_succ rfl) S64x32x8192x1
    (val_main_v30 (F := Ideal)) rfl rfl 0 rfl (ix4 b' q' d' (0 : Fin 1)) (piece_coords b' q' d' 0) rfl]
  rw [val_main_v30_apply, val_main_v28_apply, val_main_v17_apply, val_main_v14_apply, val_main_v9_apply,
    val_main_v8_apply, val_main_v13_apply, val_main_c_apply]
  show Scalar.select (IntOp.cmpi .slt (BitVec.ofNat 32 b'.val) 0#32) _ (BitVec.ofNat 32 b'.val) = _
  rw [coord_not_neg _ (by have := b'.isLt; omega), select_zero]

/-- Second component: the query coordinate `q'`. -/
theorem idx_comp1 (b' : Fin 64) (q' : Fin 32) (d' : Fin 8192) :
    val_main_v33 (F := Ideal) x0 (ix4 b' q' d' (1 : Fin 3)) = BitVec.ofNat 32 q'.val := by
  unfold val_main_v33
  rw [concatenate_apply_piece (t := S64x32x8192x3) (3 : Fin 4) _ _ (ix4 b' q' d' (1 : Fin 3)) 1 (Nat.lt_of_sub_eq_succ rfl) S64x32x8192x1
    (val_main_v31 (F := Ideal)) rfl rfl 1 rfl (ix4 b' q' d' (0 : Fin 1)) (piece_coords b' q' d' 1) rfl]
  rw [val_main_v31_apply, val_main_v29_apply, val_main_v22_apply, val_main_v19_apply, val_main_v11_apply,
    val_main_v10_apply, val_main_v18_apply, val_main_c_4_apply]
  show Scalar.select (IntOp.cmpi .slt (BitVec.ofNat 32 q'.val) 0#32) _ (BitVec.ofNat 32 q'.val) = _
  rw [coord_not_neg _ (by have := q'.isLt; omega), select_zero]

/-- Third component: the bin of the value at the position, moved up by 29 where it is negative. -/
theorem idx_comp2 (b' : Fin 64) (q' : Fin 32) (d' : Fin 8192) :
    val_main_v33 (F := Ideal) x0 (ix4 b' q' d' (2 : Fin 3))
      = Scalar.select (IntOp.cmpi .slt (binOf (x0 (ix3 b' q' d'))) 0#32) (IntOp.addi (binOf (x0 (ix3 b' q' d'))) 29#32)
          (binOf (x0 (ix3 b' q' d'))) := by
  unfold val_main_v33
  rw [concatenate_apply_piece (t := S64x32x8192x3) (3 : Fin 4) _ _ (ix4 b' q' d' (2 : Fin 3)) 2 (Nat.lt_of_sub_eq_succ rfl) S64x32x8192x1
    (val_main_v32 (F := Ideal) x0) rfl rfl 2 rfl (ix4 b' q' d' (0 : Fin 1)) (piece_coords b' q' d' 2) rfl]
  rw [val_main_v32_apply]
  have ej : idx_main_v32 (ix4 b' q' d' (0 : Fin 1)) = ix3 b' q' d' := by
    funext a
    match a with
    | ⟨0, _⟩ => rfl
    | ⟨1, _⟩ => rfl
    | ⟨2, _⟩ => rfl
  rw [ej]
  rfl

/-- Where the update at position `(b', q', d')` lands: on entry `(b, q, k)` exactly when `b' = b`, `q' = q` and the bin
    of its value, which is not negative, is `k`. -/
theorem lands_iff (hx : ∀ j, 0 ≤ (binOf (x0 j)).toInt) (b' : Fin 64) (q' : Fin 32) (d' : Fin 8192)
    (b : Fin 64) (q : Fin 32) (k : Fin 29) :
    D.resultIdx? (ix3 b' q' d') (val_main_v33 (F := Ideal) x0) = some (ix3 b q k)
      ↔ (b' = b ∧ q' = q ∧ binOf (x0 (ix3 b' q' d')) = BitVec.ofNat 32 k.val) := by
  rw [resultIdx?_eq_some_iff D (ix3 b' q' d') _ _ (window_zero _)]
  have h0 : D.start (ix3 b' q' d') (val_main_v33 (F := Ideal) x0) 0 = (b'.val : Int) := by
    rw [start_eq0, idx_comp0, toInt_ofNat_small _ (by have := b'.isLt; omega)]
  have h1 : D.start (ix3 b' q' d') (val_main_v33 (F := Ideal) x0) 1 = (q'.val : Int) := by
    rw [start_eq1, idx_comp1, toInt_ofNat_small _ (by have := q'.isLt; omega)]
  have h2 : D.start (ix3 b' q' d') (val_main_v33 (F := Ideal) x0) 2 = (binOf (x0 (ix3 b' q' d'))).toInt := by
    rw [start_eq2, idx_comp2, not_slt_zero _ (hx _), select_zero]
  constructor
  · intro h
    have g0 : (b'.val : Int) = (b.val : Int) := h0.symm.trans (h 0)
    have g1 : (q'.val : Int) = (q.val : Int) := h1.symm.trans (h 1)
    have g2 : (binOf (x0 (ix3 b' q' d'))).toInt = (k.val : Int) := h2.symm.trans (h 2)
    exact ⟨Fin.ext (by exact_mod_cast g0), Fin.ext (by exact_mod_cast g1), (toInt_eq_iff _ (hx _) k.val k.isLt).mp g2⟩
  · rintro ⟨rfl, rfl, e2⟩ a
    match a with
    | ⟨0, _⟩ => exact h0
    | ⟨1, _⟩ => exact h1
    | ⟨2, _⟩ => exact h2.trans ((toInt_eq_iff _ (hx _) k.val k.isLt).mpr e2)

/-- The reference's result is the histogram of the values, weighted by the mask read as 0 or 1. -/
theorem ref_eq_hist (hx : ∀ j, 0 ≤ (binOf (x0 j)).toInt) :
    val_main_v34 (F := Ideal) x0 x2 = hist x0 (fun j => (((x2 j).toNat : ℝ) : EReal)) := by
  funext i
  obtain ⟨b, q, k, rfl⟩ : ∃ (b : Fin 64) (q : Fin 32) (k : Fin 29), i = ix3 b q k := ⟨i 0, i 1, i 2, eq_ix3 i⟩
  show Ideal.hostScatterAdd D (val_main_v12 (F := Ideal)) (val_main_v33 (F := Ideal) x0) (val_main_v7 (F := Ideal) x2) (ix3 b q k) = _
  unfold Ideal.hostScatterAdd
  rw [val_main_v12_apply, val_main_cst_2_apply]
  show Ideal.ofBits .f32 0x00000000#32 + _ = _
  rw [Consts.ofBits_zero, zero_add]
  rw [sum_filter_fiber3 b q (fun d => binOf (x0 (ix3 b q d)) = BitVec.ofNat 32 k.val) _ _
    (fun j => by
      obtain ⟨b', q', d', rfl⟩ : ∃ (b' : Fin 64) (q' : Fin 32) (d' : Fin 8192), j = ix3 b' q' d' := ⟨j 0, j 1, j 2, eq_ix3 j⟩
      rw [Finset.mem_filter]
      simp only [Finset.mem_univ, true_and]
      rw [lands_iff x0 hx b' q' d' b q k]
      constructor
      · rintro ⟨rfl, rfl, e⟩; exact ⟨rfl, rfl, e⟩
      · rintro ⟨e0, e1, e⟩
        have e0' : b' = b := e0
        have e1' : q' = q := e1
        subst e0' e1'
        exact ⟨rfl, rfl, e⟩)]
  rfl

end Cert.Hist.Ref

end
-- ==== Proof.KernelBlock.lean ====
/-
  What the kernel's body leaves in the histogram block of one grid point, entry by entry.

  The body reads a block of 4 batches of similarity values and of the mask (widened to words), computes the bin of every
  value, and for each of the 29 bins `k` sums over the document axis the weights of the positions whose bin is `k`
  (a position whose bin differs contributes the zero it selects); the 29 column vectors are joined along the bin axis.
  So entry `(p, q, k)` of the block is the sum over the document positions `d` of the weight at `(p, q, d)` where the bin
  at `(p, q, d)` is `k`.
-/
import proofs.«158689_j49108656062551_1_alg».proof.Proof.Gen.KernelIdeal.Frame
import proofs.«158689_j49108656062551_1_alg».proof.Proof.Bins
import Idealize.ShloMosaic.Lib.Pipeline.Value
import Idealize.ShloMosaic.Lib.ValueIdx
import Idealize.ShloMosaic.PureOps.Ideal.Laws

set_option maxRecDepth 16384

noncomputable section

namespace Cert.Hist.Ker

open Cert.KernelIdeal Cert.KernelIdeal.Gen
open Idealize.ShloMosaic Idealize.ShloMosaic.ValueIdx

/-- The weight the kernel gives a mask word: 1 where the word is not zero, else 0. -/
def wOf (v : BitVec 32) : EReal := ((((IntOp.cmpi .ne v 0#32).setWidth 32).toInt : ℝ) : EReal)

/-- Column `k` of the block: for every (batch, query position), the sum over the document axis of the weights selected
    where the bin is `k`, as a [4, 32, 1] vector. -/
def colv (bins : IVec S4x32x8192 32) (w : FVec Ideal S4x32x8192 .f32) (k : Fin 29) : FVec Ideal S4x32x1 .f32 :=
  shapeCast S4x32x1
    (multiReduction .add [2] S4x32
      (select (cmpi .eq bins (broadcast S4x32x8192 (BitVec.ofNat 32 k.val))) w
        (broadcast S4x32x8192 (Scalar.ofBits (F := Ideal) .f32 0x00000000#32)))
      0x00000000#32 reduces_S4x32x8192_S4x32 (.inl rfl) rfl)
    shapeCasts_S4x32_S4x32x1

theorem hz3 : (![0, 0, 0] : Fin 3 → Nat) = fun _ => 0 := funext fun a => by fin_cases a <;> rfl

/-- The body's store is the 29 columns joined along the bin axis. -/
theorem out_eq (x0 : Vec Ideal S4x32x8192 .f32) (x1 : Vec Ideal S4x32x8192 .i32) :
    out0_2 (F := Ideal) x0 x1
      = concatenate S4x32x29 2
          (List.ofFn fun k : Fin 29 => (⟨S4x32x1, colv (k0_pay4 (F := Ideal) x0) (k0_pay5 (F := Ideal) x1) k⟩ : (s : Shape) × (s.Idx → Ideal .f32)))
          concatenates_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x29_d2 := by
  unfold out0_2
  rw [View.canon_unit_zero hz3]
  simp only [View.ld_unit_zero (S := S4x32x8192) hz3]
  rfl

/-- The weight-selecting test on one position: the bin's word equals `k`'s word. -/
theorem select_eq_ite (v c : BitVec 32) (a b : EReal) :
    Scalar.select (IntOp.cmpi .eq v c) a b = if v = c then a else b := by
  by_cases h : v = c
  · subst h; simp [Scalar.select, IntOp.cmpi]
  · have : (v == c) = false := by simpa using h
    simp [Scalar.select, IntOp.cmpi, this, h]

/-- Entry `(p, q, k)` of the block: the weights of row `(p, q)`'s document positions whose bin is `k`, added up. -/
theorem out_apply (x0 : Vec Ideal S4x32x8192 .f32) (x1 : Vec Ideal S4x32x8192 .i32) (p : Fin 4) (q : Fin 32) (k : Fin 29) :
    out0_2 (F := Ideal) x0 x1 (ix3 p q k)
      = ∑ d : Fin 8192, if binOf (x0 (ix3 p q d)) = BitVec.ofNat 32 k.val then wOf (x1 (ix3 p q d)) else 0 := by
  rw [out_eq]
  refine (concatenate_ofFn_unit_apply (t := S4x32x29) (s₁ := S4x32x1) (2 : Fin 3)
    (fun k : Fin 29 => colv (k0_pay4 (F := Ideal) x0) (k0_pay5 (F := Ideal) x1) k) _ rfl rfl (ix3 p q k) k rfl
    (ix3 p q (0 : Fin 1))
    (fun b hb => by
      match b with
      | ⟨0, _⟩ => rfl
      | ⟨1, _⟩ => rfl
      | ⟨2, _⟩ => exact absurd rfl hb)).trans ?_
  unfold colv
  rw [shapeCast_apply _ shapeCasts_S4x32_S4x32x1 (ix3 p q (0 : Fin 1)) (ix2 p q)
    (by rw [Shape.rowMajor_val_two, Shape.rowMajor_val_three]; show p.val * 32 + q.val = (p.val * 32 + q.val) * 1 + 0; omega)]
  refine (Ideal.multiReduction_add_single _ _ reduces_S4x32x8192_S4x32 _ _ (ix2 p q)).trans ?_
  refine Finset.sum_congr rfl fun d _ => ?_
  have el : reduces_S4x32x8192_S4x32.lift (ix2 p q) d = ix3 p q d := by
    funext a
    match a with
    | ⟨0, _⟩ => rfl
    | ⟨1, _⟩ => rfl
    | ⟨2, _⟩ => rfl
  rw [el]
  show Scalar.select (IntOp.cmpi .eq (binOf (x0 (ix3 p q d))) (BitVec.ofNat 32 k.val)) (wOf (x1 (ix3 p q d)))
    (Ideal.ofBits .f32 0x00000000#32) = _
  rw [select_eq_ite, Consts.ofBits_zero]

end Cert.Hist.Ker

end
-- ==== Proof.KernelHist.lean ====
/-
  The kernel's result array is the histogram `hist`.

  Grid point `t` reads batches `4t … 4t + 3` of the similarity values and of the mask (widened to words by the host before
  the call) and writes batches `4t … 4t + 3` of the histograms. Entry `(p, q, k)` of the block it writes is the sum over the
  document positions of the weights of row `(p, q)` of ITS block whose bin is `k`, which is entry `(4t + p, q, k)` of the
  histogram of the whole arrays. The 16 blocks tile the 64 batches, so after the run the result array holds the histogram.
  The kernel's weight of a mask bit (is the widened word not zero?) is the bit read as 0 or 1.
-/
import proofs.«158689_j49108656062551_1_alg».proof.Proof.Gen.KernelIdeal.Value
import proofs.«158689_j49108656062551_1_alg».proof.Proof.KernelBlock
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.Hist.Ker

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The similarity values as launched. -/
abbrev xarr (c : Dev nD) : S64x32x8192.Idx → EReal := m ((c : Thread nD τ).loc main_arg0)
/-- The mask as launched. -/
abbrev marr (c : Dev nD) : IVec S64x32x8192 1 := m ((c : Thread nD τ).loc main_arg2)

/-- The kernel's weight of a mask bit, through its widening to a word, is the bit read as 0 or 1. -/
theorem wOf_setWidth (b : BitVec 1) : wOf (b.setWidth 32) = (((b.toNat : ℕ) : ℝ) : EReal) := by
  have h : ∀ b : BitVec 1, ((IntOp.cmpi .ne (b.setWidth 32) 0#32).setWidth 32).toInt = (b.toNat : Int) := by decide
  unfold wOf
  rw [h b]
  norm_cast

/-- The region finds the mask widened to words. -/
theorem V_mask (c : Dev nD) : (V m c main_v0 : S64x32x8192.Idx → BitVec 32) = extui 32 (marr m c) natLt_1_32 := by
  dsimp only [Gen.V, Gen.hostOps0]
  after_results

/-- The printed index maps over the grid: every window's block index is the grid point on the batch axis, 0 on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0)

theorem t_lt (t : Fin cfg0.N) : t.val < 16 := by have := t.isLt; have e : cfg0.N = 16 := N_0; omega

/-- Batch `p` of grid point `t`'s block is batch `4t + p` of the array. -/
def row (t : Fin cfg0.N) (p : Fin 4) : Fin 64 := ⟨4 * t.val + p.val, by have := t_lt t; have := p.isLt; omega⟩

/-- The block of similarity values at point `t`: batches `4t … 4t + 3` of the array. -/
theorem iblk0_apply (c : Dev nD) (t : Fin cfg0.N) (p : Fin 4) (q : Fin 32) (d : Fin 8192) :
    (iblk m c 0 t : Vec Ideal S4x32x8192 .f32) (ix3 p q d) = xarr m c (ix3 (row t p) q d) := by
  obtain ⟨e0, e1, e2, -⟩ := idx_facts t
  unfold iblk
  rw [View.read_apply]
  show V m c main_arg0 _ = m ((c : Thread nD τ).loc main_arg0) _
  refine (congrFun (V_main_arg0 m c) _).trans ?_
  congr 1
  funext a
  apply Fin.ext
  match a with
  | ⟨0, _⟩ => show win0_0.index t (0 : Fin 3) * 4 + 1 * p.val = 4 * t.val + p.val; rw [e0]; omega
  | ⟨1, _⟩ => show win0_0.index t (1 : Fin 3) * 32 + 1 * q.val = q.val; rw [e1]; omega
  | ⟨2, _⟩ => show win0_0.index t (2 : Fin 3) * 8192 + 1 * d.val = d.val; rw [e2]; omega

/-- The block of mask words at point `t`: batches `4t … 4t + 3` of the mask, widened. -/
theorem iblk1_apply (c : Dev nD) (t : Fin cfg0.N) (p : Fin 4) (q : Fin 32) (d : Fin 8192) :
    (iblk m c 1 t : Vec Ideal S4x32x8192 .i32) (ix3 p q d) = (marr m c (ix3 (row t p) q d)).setWidth 32 := by
  obtain ⟨-, -, -, e0, e1, e2, -⟩ := idx_facts t
  unfold iblk
  rw [View.read_apply]
  show (V m c main_v0 : S64x32x8192.Idx → BitVec 32) _ = _
  rw [V_mask]
  show (marr m c _).setWidth 32 = _
  congr 2
  funext a
  apply Fin.ext
  match a with
  | ⟨0, _⟩ => show win0_1.index t (0 : Fin 3) * 4 + 1 * p.val = 4 * t.val + p.val; rw [e0]; omega
  | ⟨1, _⟩ => show win0_1.index t (1 : Fin 3) * 32 + 1 * q.val = q.val; rw [e1]; omega
  | ⟨2, _⟩ => show win0_1.index t (2 : Fin 3) * 8192 + 1 * d.val = d.val; rw [e2]; omega

/-- The histogram of the arrays as launched, the mask read as 0 or 1. -/
abbrev result (c : Dev nD) : S64x32x29.Idx → EReal :=
  hist (xarr m c) (fun j => (((marr m c j).toNat : ℝ) : EReal))

/-- Entry `(p, q, k)` of what the body leaves at point `t` is entry `(4t + p, q, k)` of the histogram. -/
theorem block_entry (c : Dev nD) (t : Fin cfg0.N) (p : Fin 4) (q : Fin 32) (k : Fin 29) :
    out0_2 (F := Ideal) (iblk m c 0 t) (iblk m c 1 t) (ix3 p q k) = result m c (ix3 (row t p) q k) := by
  refine (out_apply (iblk m c 0 t) (iblk m c 1 t) p q k).trans ?_
  show _ = ∑ d : Fin 8192, if binOf (xarr m c (ix3 (row t p) q d)) = BitVec.ofNat 32 k.val
      then (((marr m c (ix3 (row t p) q d)).toNat : ℝ) : EReal) else 0
  refine Finset.sum_congr rfl fun d _ => ?_
  rw [iblk0_apply m c t p q d, iblk1_apply m c t p q d, wOf_setWidth]

/-- The same for a block index `y` and the array index `i` it is read through: `i = (4t + y₀, y₁, y₂)`. -/
theorem block_entry_at (c : Dev nD) (t : Fin cfg0.N) (y : S4x32x29.Idx) (i : S64x32x29.Idx)
    (h0 : (i 0).val = 4 * t.val + (y 0).val) (h1 : (i 1).val = (y 1).val) (h2 : (i 2).val = (y 2).val) :
    out0_2 (F := Ideal) (iblk m c 0 t) (iblk m c 1 t) y = result m c i := by
  obtain ⟨p, q, k, rfl⟩ : ∃ (p : Fin 4) (q : Fin 32) (k : Fin 29), y = ix3 p q k := ⟨y 0, y 1, y 2, eq_ix3 y⟩
  have ei : i = ix3 (row t p) q k := by
    funext a
    apply Fin.ext
    match a with
    | ⟨0, _⟩ => exact h0
    | ⟨1, _⟩ => exact h1
    | ⟨2, _⟩ => exact h2
  rw [ei]
  exact block_entry m c t p q k

/-- What grid point `t` writes back is block `t` of the histogram. -/
theorem flushed_eq (c : Dev nD) (t : Fin cfg0.N) :
    (dats m 0 c).flushed 2 t = ((cfg0.win 2).blk t).view.read (Elt Ideal) (result m c) := by
  rw [flushed2]
  obtain ⟨-, -, -, -, -, -, e0, e1, e2⟩ := idx_facts t
  funext y
  show out0_2 (F := Ideal) (iblk m c 0 t) (iblk m c 1 t) y = result m c (((cfg0.win 2).blk t).view.emb y)
  refine block_entry_at m c t y _ ?_ ?_ ?_
  · show win0_2.index t (0 : Fin 3) * 4 + 1 * (y 0).val = 4 * t.val + (y 0).val; rw [e0]; omega
  · show win0_2.index t (1 : Fin 3) * 32 + 1 * (y 1).val = (y 1).val; rw [e1]; omega
  · show win0_2.index t (2 : Fin 3) * 29 + 1 * (y 2).val = (y 2).val; rw [e2]; omega

/-- An index of the result array is in point `t`'s block iff each coordinate is in the block's range on its axis. -/
theorem mem_blk (t : Fin cfg0.N) (i : S64x32x29.Idx) :
    i ∈ ((cfg0.win 2).blk t).view.set ↔ ∀ a : Fin 3, win0_2.index t a * S4x32x29.size a ≤ (i a).val
      ∧ (i a).val < win0_2.index t a * S4x32x29.size a + S4x32x29.size a := by
  show i ∈ ((View.whole main_v1).slice (win0_2.rect t)).set ↔ _
  rw [View.set_slice_whole, Rect.mem_set_unit]
  exact Iff.rfl

/-- The 16 blocks tile the result array: batch `b` is in the block of point `b / 4`. -/
theorem cover (i : S64x32x29.Idx) : ∃ t : Fin cfg0.N, (cfg0.win 2).flush t = true ∧ i ∈ ((cfg0.win 2).blk t).view.set := by
  have h0 : (i 0).val < 64 := (i 0).isLt
  have h1 : (i 1).val < 32 := (i 1).isLt
  have h2 : (i 2).val < 29 := (i 2).isLt
  have hN : cfg0.N = 16 := N_0
  have ht : (i 0).val / 4 < cfg0.N := by rw [hN]; omega
  obtain ⟨-, -, -, -, -, -, e0, e1, e2⟩ := idx_facts ⟨(i 0).val / 4, ht⟩
  refine ⟨⟨(i 0).val / 4, ht⟩, flush0_2 _, ?_⟩
  rw [mem_blk]
  intro a
  match a with
  | ⟨0, _⟩ =>
    show win0_2.index ⟨(i 0).val / 4, ht⟩ (0 : Fin 3) * 4 ≤ (i 0).val
      ∧ (i 0).val < win0_2.index ⟨(i 0).val / 4, ht⟩ (0 : Fin 3) * 4 + 4
    rw [e0]; show (i 0).val / 4 * 4 ≤ (i 0).val ∧ (i 0).val < (i 0).val / 4 * 4 + 4; omega
  | ⟨1, _⟩ =>
    show win0_2.index ⟨(i 0).val / 4, ht⟩ (1 : Fin 3) * 32 ≤ (i 1).val
      ∧ (i 1).val < win0_2.index ⟨(i 0).val / 4, ht⟩ (1 : Fin 3) * 32 + 32
    rw [e1]; omega
  | ⟨2, _⟩ =>
    show win0_2.index ⟨(i 0).val / 4, ht⟩ (2 : Fin 3) * 29 ≤ (i 2).val
      ∧ (i 2).val < win0_2.index ⟨(i 0).val / 4, ht⟩ (2 : Fin 3) * 29 + 29
    rw [e2]; omega

/-- After the run the result array holds the histogram. -/
theorem final (c : Dev nD) : (dats m 0 c).arrAt 2 cfg0.N = result m c :=
  (dats m 0 c).arrAt_eq_of_cover 2 (result m c) (fun t _ => flushed_eq m c t) cover

/-- The kernel's run: the result array at the histogram of the arguments as launched, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Hist.Ker

end
-- ==== Proof.lean ====
/-
  A histogram kernel against a scatter-add reference, equal as extended reals for similarity values of at least -1.

  Both programs put a similarity value `x` into the bin `trunc ((x + 1.00001) / 2 · 28)` and count, per (batch, query
  position) and per bin, the masked document positions that fall into it. The kernel does so for each of the 29 bins by a
  sum over the document axis of the weights selected where the bin matches; the reference by one accumulating scatter of
  the weights at the index (batch, query position, bin), a negative bin read as an index counted from the end of the 29
  bins and an index outside the bins dropped. Where no bin is negative — the similarity values are at least -1, the lower
  end of their documented range, so the shifted value is positive — both results are the same sum: over the document
  positions of a row, the weight where the bin is `k` (`Cert.Hist.hist`). A bin above 28 matches no column of the kernel
  and lands nowhere in the reference.

  The frames of the two kernel programs are the generated ones; the reference's frame is its run with the result dropped.
  The idealization rewrote nothing, so there is nothing to preserve.
-/
import proofs.«158689_j49108656062551_1_alg».proof.Defs
import proofs.«158689_j49108656062551_1_alg».proof.Proof.Gen.Kernel
import proofs.«158689_j49108656062551_1_alg».proof.Proof.Gen.Kernel.Skeleton
import proofs.«158689_j49108656062551_1_alg».proof.Proof.Gen.Kernel.Launch
import proofs.«158689_j49108656062551_1_alg».proof.Proof.Gen.Kernel.Points
import proofs.«158689_j49108656062551_1_alg».proof.Proof.Gen.Kernel.Frame
import proofs.«158689_j49108656062551_1_alg».proof.Proof.Gen.KernelIdeal
import proofs.«158689_j49108656062551_1_alg».proof.Proof.Gen.KernelIdeal.Skeleton
import proofs.«158689_j49108656062551_1_alg».proof.Proof.Gen.KernelIdeal.Launch
import proofs.«158689_j49108656062551_1_alg».proof.Proof.Gen.KernelIdeal.Points
import proofs.«158689_j49108656062551_1_alg».proof.Proof.Gen.KernelIdeal.Frame
import proofs.«158689_j49108656062551_1_alg».proof.Proof.Gen.ReferenceIdeal
import proofs.«158689_j49108656062551_1_alg».proof.Proof.Gen.KernelIdeal.Value
import proofs.«158689_j49108656062551_1_alg».proof.Proof.Gen.ReferenceIdeal.Run
import proofs.«158689_j49108656062551_1_alg».proof.Proof.Gen.ReferenceIdeal.Read
import proofs.«158689_j49108656062551_1_alg».proof.Proof.Gen.Pre_finite_inputs
import proofs.«158689_j49108656062551_1_alg».proof.Proof.Range
import proofs.«158689_j49108656062551_1_alg».proof.Proof.RefHist
import proofs.«158689_j49108656062551_1_alg».proof.Proof.KernelHist
import Idealize.ShloMosaic.Adequacy
import Idealize.ShloMosaic.Init

noncomputable section

namespace Cert.Proof

open Idealize.ShloMosaic Idealize.SL.Sem

/-- The reference runs, and leaves its arguments as they were: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Both programs end with the histogram of the launched arrays: the kernel block by block, the reference by its
    scatter, where the precondition keeps every bin non-negative. -/
theorem algebraic : Cert.algebraic_KernelIdeal_ReferenceIdeal := by
  intro m ρ m' ρ' hpre hagree
  refine ⟨fun c => Cert.Hist.Ker.result m c, Cert.Hist.Ker.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v34_eq (F := Ideal) _ _).trans ?_
  rw [(hagree c).1, (hagree c).2.2]
  exact Cert.Hist.Ref.ref_eq_hist _ _ fun j => Cert.Hist.binOf_nonneg (Cert.Hist.Range.lower_of_pre _ _ _ (hpre c) j)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
